-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : IVec S11008x4096 32) (main_arg2 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  main_v8
-- ==== Kernel.lean ====
abbrev S4x2048x4096 : Shape := ⟨3, ![4, 2048, 4096]⟩
abbrev S11008x4096 : Shape := ⟨2, ![11008, 4096]⟩
abbrev S11008 : Shape := ⟨1, ![11008]⟩
abbrev S8192x4096 : Shape := ⟨2, ![8192, 4096]⟩
abbrev S1x11008 : Shape := ⟨2, ![1, 11008]⟩
abbrev S8192x11008 : Shape := ⟨2, ![8192, 11008]⟩
abbrev S1024x4096 : Shape := ⟨2, ![1024, 4096]⟩
abbrev S256x4096 : Shape := ⟨2, ![256, 4096]⟩
abbrev S1x256 : Shape := ⟨2, ![1, 256]⟩
abbrev S1024x256 : Shape := ⟨2, ![1024, 256]⟩
abbrev S4x2048x11008 : Shape := ⟨3, ![4, 2048, 11008]⟩

abbrev nBuf : Space → Nat
  | .hbm => 8
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S8192x4096, .f32⟩
  | .hbm, ⟨4, _⟩ => ⟨S8192x4096, .bf16⟩
  | .hbm, ⟨5, _⟩ => ⟨S1x11008, .f32⟩
  | .hbm, ⟨6, _⟩ => ⟨S8192x11008, .f32⟩
  | .hbm, ⟨7, _⟩ => ⟨S4x2048x11008, .f32⟩
  | .local _ .vmem, ⟨0, _⟩ => ⟨S1024x4096, .bf16⟩
  | .local _ .vmem, ⟨1, _⟩ => ⟨S1024x4096, .bf16⟩
  | .local _ .vmem, ⟨2, _⟩ => ⟨S256x4096, .i32⟩
  | .local _ .vmem, ⟨3, _⟩ => ⟨S256x4096, .i32⟩
  | .local _ .vmem, ⟨4, _⟩ => ⟨S1x256, .f32⟩
  | .local _ .vmem, ⟨5, _⟩ => ⟨S1x256, .f32⟩
  | .local _ .vmem, ⟨6, _⟩ => ⟨S1024x256, .f32⟩
  | .local _ .vmem, ⟨7, _⟩ => ⟨S1024x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x2048x4096_S8192x4096 : S4x2048x4096.ShapeCasts S8192x4096
  bitsLt_bf16_f32 : FTy.bits .bf16 < FTy.bits .f32
  shapeCasts_S11008_S1x11008 : S11008.ShapeCasts S1x11008
  inb_S256x4096_S256x4096_0_0 : ∀ a, (![0, 0] : Fin 2 → Nat) a + S256x4096.size a ≤ S256x4096.size a
  h_S256x4096 : 0 < S256x4096.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S8192x11008_S4x2048x11008 : S8192x11008.ShapeCasts S4x2048x11008
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x11008.size a
  hwx0_3 : ∀ i : grid0.Coords, EltTy.bits .f32 = 32 ∨ (Rect.block (s := S8192x11008) S1024x256.size (cc0_transform_3 i) (hinb0_3 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_v1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008 : Shape := ⟨1, ![11008]⟩
abbrev S4x2048x11008 : Shape := ⟨3, ![4, 2048, 11008]⟩
abbrev S1x1x11008 : Shape := ⟨3, ![1, 1, 11008]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S11008x4096, .f32⟩
  | .hbm, ⟨4, _⟩ => ⟨S4x2048x11008, .f32⟩
  | .hbm, ⟨5, _⟩ => ⟨S1x1x11008, .f32⟩
  | .hbm, ⟨6, _⟩ => ⟨S4x2048x11008, .f32⟩
  | .hbm, ⟨7, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Spec.lean ====
/-
  A linear layer whose weight matrix holds integers, each output channel then scaled:

      out[b, s, o] = (∑ₖ x[b, s, k] · w[o, k]) · scale[o],        k < 4096,

  on the extended reals, a weight entry read as the integer its 32-bit word denotes (signed). Both programs compute
  this function of their three arguments. One of them computes it on the activations flattened to 8192 rows (row
  b·2048 + s holds x[b, s, ·]), with the scales laid out as a one-row matrix, into an [8192, 11008] matrix that is
  finally re-read as [4, 2048, 11008] by row-major position: `flat` is that matrix as a function of the flattened
  operands, and `unflatten` says that re-reading it gives `out`.

  No algebraic law is involved. Both sides form the same products, add them over the same index k and scale the
  sum on the same side, so nothing here asks the inputs to be finite: the equalities hold for every extended real.
-/
import Idealize.ShloMosaic.PureOps.Ideal
import Idealize.ShloMosaic.Lib.ValueIdx
import Idealize.ShloMosaic.Lib.Pipeline.Value

noncomputable section

open scoped BigOperators

namespace Cert.ScaledLinear

open Idealize.ShloMosaic Idealize.ShloMosaic.ValueIdx

/-- The activations [4, 2048, 4096], the integer weights [11008, 4096], the scales [11008], the result [4, 2048, 11008]. -/
abbrev Acts : Shape := ⟨3, ![4, 2048, 4096]⟩
abbrev Wts : Shape := ⟨2, ![11008, 4096]⟩
abbrev Scales : Shape := ⟨1, ![11008]⟩
abbrev Out : Shape := ⟨3, ![4, 2048, 11008]⟩
/-- The flattened forms: activations as 8192 rows, scales as one row, the result as 8192 rows. -/
abbrev Rows : Shape := ⟨2, ![8192, 4096]⟩
abbrev ScaleRow : Shape := ⟨2, ![1, 11008]⟩
abbrev FlatOut : Shape := ⟨2, ![8192, 11008]⟩

/-- A weight word as the extended real it stands for: the integer it denotes, read signed. -/
abbrev weightVal (b : BitVec 32) : EReal := FloatOps.sitofp (F := Ideal) .f32 b

theorem weightVal_eq (b : BitVec 32) : weightVal b = ((b.toInt : ℝ) : EReal) := rfl

/-- The result: entry (b, s, o) is row (b, s) of the activations against row o of the weights, times scale o. -/
def out (x : Acts.Idx → EReal) (w : Wts.Idx → BitVec 32) (sc : Scales.Idx → EReal) : Out.Idx → EReal :=
  fun i => (∑ k : Fin 4096, x (ix3 (i 0) (i 1) k) * weightVal (w (ix2 (i 2) k))) * sc (ix1 (i 2))

/-- The same on flattened operands: entry (r, o) is row r of the activations against row o of the weights, times
    entry (0, o) of the scale row. -/
def flat (x2 : Rows.Idx → EReal) (w : Wts.Idx → BitVec 32) (sc2 : ScaleRow.Idx → EReal) : FlatOut.Idx → EReal :=
  fun i => (∑ k : Fin 4096, x2 (ix2 (i 0) k) * weightVal (w (ix2 (i 1) k))) * sc2 (ix2 (0 : Fin 1) (i 1))

/-- Re-reading the flat result by row-major position gives `out`: entry (b, s, o) of the re-read array is entry
    (b·2048 + s, o) of the flat one, whose activation row b·2048 + s is row (b, s) of the unflattened activations and
    whose scale (0, o) is scale o. -/
theorem unflatten (x : Acts.Idx → EReal) (w : Wts.Idx → BitVec 32) (sc : Scales.Idx → EReal)
    (hx : Acts.ShapeCasts Rows) (hs : Scales.ShapeCasts ScaleRow) (ho : FlatOut.ShapeCasts Out) :
    shapeCast Out (flat (shapeCast Rows x hx) w (shapeCast ScaleRow sc hs)) ho = out x w sc := by
  funext j
  obtain ⟨b, r, o, rfl⟩ : ∃ (b : Fin 4) (r : Fin 2048) (o : Fin 11008), j = ix3 b r o := ⟨j 0, j 1, j 2, eq_ix3 j⟩
  have hb : b.val < 4 := b.isLt
  have hr : r.val < 2048 := r.isLt
  have hrow : b.val * 2048 + r.val < 8192 := by omega
  rw [shapeCast_apply _ ho (ix3 b r o) (ix2 (⟨b.val * 2048 + r.val, hrow⟩ : Fin 8192) o) (by
    rw [Shape.rowMajor_val_two, Shape.rowMajor_val_three]
    show (b.val * 2048 + r.val) * 11008 + o.val = (b.val * 2048 + r.val) * 11008 + o.val
    rfl)]
  show (∑ k : Fin 4096, shapeCast Rows x hx (ix2 (⟨b.val * 2048 + r.val, hrow⟩ : Fin 8192) k) * weightVal (w (ix2 o k)))
      * shapeCast ScaleRow sc hs (ix2 (0 : Fin 1) o)
    = (∑ k : Fin 4096, x (ix3 b r k) * weightVal (w (ix2 o k))) * sc (ix1 o)
  have hrowk : ∀ k : Fin 4096, shapeCast Rows x hx (ix2 (⟨b.val * 2048 + r.val, hrow⟩ : Fin 8192) k) = x (ix3 b r k) := fun k =>
    shapeCast_apply _ hx _ (ix3 b r k) (by
      rw [Shape.rowMajor_val_three, Shape.rowMajor_val_two]
      show (b.val * 2048 + r.val) * 4096 + k.val = (b.val * 2048 + r.val) * 4096 + k.val
      rfl)
  have hsc : shapeCast ScaleRow sc hs (ix2 (0 : Fin 1) o) = sc (ix1 o) :=
    shapeCast_apply _ hs _ (ix1 o) (by
      rw [Shape.rowMajor_val_one, Shape.rowMajor_val_two]
      show o.val = 0 * 11008 + o.val
      omega)
  rw [hsc]
  exact congrArg (· * sc (ix1 o)) (Finset.sum_congr rfl fun k _ => by rw [hrowk k])

end Cert.ScaledLinear

end
-- ==== Proof.RefValue.lean ====
/-
  The reference computes `out`. Read one operation at a time, its result at an index (b, s, o) is the contraction
  over k of the activations at (b, s, k) with the converted weights at (o, k), times the scale vector broadcast along
  the first two axes, that is, scale o. These are the specification's terms once the index functions the operations are
  read through are recognised as coordinates.
-/
import proofs.«421068_j26353919328818_3_alg».proof.Proof.Gen.ReferenceIdeal.Read
import proofs.«421068_j26353919328818_3_alg».proof.Proof.Spec

noncomputable section

open scoped BigOperators

namespace Cert.ReferenceIdeal.RefValue

open Cert.ReferenceIdeal Cert.ReferenceIdeal.Read Cert.ScaledLinear Idealize.ShloMosaic Idealize.ShloMosaic.ValueIdx

/-- The left operand of the contraction is read at (b, s, k). -/
theorem lidx_eq (i : S4x2048x11008.Idx) (k : Fin 4096) : lidx_main_v1 i k = ix3 (i 0) (i 1) k :=
  funext fun a => Fin.ext (by match a with | ⟨0, _⟩ => rfl | ⟨1, _⟩ => rfl | ⟨2, _⟩ => rfl)

/-- The right operand is read at (o, k). -/
theorem ridx_eq (i : S4x2048x11008.Idx) (k : Fin 4096) : ridx_main_v1 i k = ix2 (i 2) k :=
  funext fun a => Fin.ext (by match a with | ⟨0, _⟩ => rfl | ⟨1, _⟩ => rfl)

/-- The two broadcasts of the scales read scale o. -/
theorem sidx_eq (i : S4x2048x11008.Idx) : idx_main_v2 (idx_main_v3 i) = ix1 (i 2) :=
  funext fun a => Fin.ext (by match a with | ⟨0, _⟩ => rfl)

/-- The reference's result is `out` of its three arguments. -/
theorem reference_eq (x0 : (⟨S4x2048x4096, .f32⟩ : BufTy).Contents (Elt Ideal)) (x1 : (⟨S11008x4096, .i32⟩ : BufTy).Contents (Elt Ideal))
    (x2 : (⟨S11008, .f32⟩ : BufTy).Contents (Elt Ideal)) :
    val_main_v4 (F := Ideal) x0 x1 x2 = out x0 x1 x2 := by
  funext i
  rw [val_main_v4_apply, val_main_v1_apply, val_main_v3_apply, val_main_v2_apply, sidx_eq]
  simp only [lidx_eq, ridx_eq, val_main_v0_apply]
  rfl

end Cert.ReferenceIdeal.RefValue

end
-- ==== Proof.KernelPayload.lean ====
/-
  What the kernel body stores, at one entry (p, q) of its [1024, 256] block: the weight block's integers are converted
  (the narrowing to a shorter float format changes nothing on the extended reals), row p of the activation block is
  contracted with row q of the converted weights into a zero accumulator, which leaves just the sum over k, and the
  result is multiplied by entry (0, q) of the one-row scale block, broadcast down the rows.
-/
import proofs.«421068_j26353919328818_3_alg».proof.Proof.Gen.KernelIdeal.Skeleton
import proofs.«421068_j26353919328818_3_alg».proof.Proof.Spec
import Idealize.ShloMosaic.PureOps.Ideal.Laws
import Idealize.ShloMosaic.Lib.Pipeline.Value
import Idealize.ShloMosaic.Lib.ValueIdx

noncomputable section

open scoped BigOperators

namespace Cert.KernelIdeal.Block

open Cert.KernelIdeal Cert.KernelIdeal.Gen Cert.ScaledLinear
open Idealize.ShloMosaic Idealize.ShloMosaic.ValueIdx

/-! ## The contraction's operand indices, axis by axis

The product contracts axis 1 of both operands: at output entry (p, q) and contraction index k the left operand is read
at (p, k) and the right at (q, k). -/

theorem lhs_axis0 (i : S1024x256.Idx) (q : dot_S1024x4096_S256x4096_S1024x256_1_1_0_0_n_n.contr.Idx) :
    (dot_S1024x4096_S256x4096_S1024x256_1_1_0_0_n_n.lhsIdx i q 0).val = (i 0).val := by
  unfold DotDims.lhsIdx
  rw [dif_neg (show ¬(0 : Fin S1024x4096.rank) ∈ dot_S1024x4096_S256x4096_S1024x256_1_1_0_0_n_n.lhsBatch by decide), dif_pos (show (0 : Fin S1024x4096.rank) ∈ dot_S1024x4096_S256x4096_S1024x256_1_1_0_0_n_n.lhsNonContracting by decide)]
  rfl
theorem lhs_axis1 (i : S1024x256.Idx) (q : dot_S1024x4096_S256x4096_S1024x256_1_1_0_0_n_n.contr.Idx) :
    (dot_S1024x4096_S256x4096_S1024x256_1_1_0_0_n_n.lhsIdx i q 1).val = (q ⟨0, by decide⟩).val :=
  dot_S1024x4096_S256x4096_S1024x256_1_1_0_0_n_n.lhsIdx_val_of_single rfl i q
theorem rhs_axis0 (i : S1024x256.Idx) (q : dot_S1024x4096_S256x4096_S1024x256_1_1_0_0_n_n.contr.Idx) :
    (dot_S1024x4096_S256x4096_S1024x256_1_1_0_0_n_n.rhsIdx i q 0).val = (i 1).val := by
  unfold DotDims.rhsIdx
  rw [dif_neg (show ¬(0 : Fin S256x4096.rank) ∈ dot_S1024x4096_S256x4096_S1024x256_1_1_0_0_n_n.rhsBatch by decide), dif_pos (show (0 : Fin S256x4096.rank) ∈ dot_S1024x4096_S256x4096_S1024x256_1_1_0_0_n_n.rhsNonContracting by decide)]
  rfl
theorem rhs_axis1 (i : S1024x256.Idx) (q : dot_S1024x4096_S256x4096_S1024x256_1_1_0_0_n_n.contr.Idx) :
    (dot_S1024x4096_S256x4096_S1024x256_1_1_0_0_n_n.rhsIdx i q 1).val = (q ⟨0, by decide⟩).val :=
  dot_S1024x4096_S256x4096_S1024x256_1_1_0_0_n_n.rhsIdx_val_of_single rfl i q

/-- The block product into a zero accumulator, at entry (p, q): the sum over k of left (p, k) times right (q, k). -/
theorem product_at (a : FVec Ideal S1024x4096 .bf16) (b : FVec Ideal S256x4096 .bf16) (p : Fin 1024) (q : Fin 256) :
    matmul (F := Ideal) dot_S1024x4096_S256x4096_S1024x256_1_1_0_0_n_n none a b (constant (F := Ideal) S1024x256 .f32 0x00000000#32) (ix2 p q)
      = ∑ k : Fin 4096, a (ix2 p k) * b (ix2 q k) := by
  simp only [matmul]
  rw [Ideal.matmul_constant_zero_apply, ← Equiv.sum_comp (contrEquiv1 dot_S1024x4096_S256x4096_S1024x256_1_1_0_0_n_n 4096 rfl rfl).symm]
  refine Finset.sum_congr rfl fun k _ => ?_
  have hk := contrEquiv1_symm_val dot_S1024x4096_S256x4096_S1024x256_1_1_0_0_n_n 4096 rfl rfl k
  have el : dot_S1024x4096_S256x4096_S1024x256_1_1_0_0_n_n.lhsIdx (ix2 p q) ((contrEquiv1 dot_S1024x4096_S256x4096_S1024x256_1_1_0_0_n_n 4096 rfl rfl).symm k) = ix2 p k := funext fun a => Fin.ext (by
    match a with
    | ⟨0, _⟩ => exact lhs_axis0 _ _
    | ⟨1, _⟩ => exact (lhs_axis1 _ _).trans hk)
  have er : dot_S1024x4096_S256x4096_S1024x256_1_1_0_0_n_n.rhsIdx (ix2 p q) ((contrEquiv1 dot_S1024x4096_S256x4096_S1024x256_1_1_0_0_n_n 4096 rfl rfl).symm k) = ix2 q k := funext fun a => Fin.ext (by
    match a with
    | ⟨0, _⟩ => exact rhs_axis0 _ _
    | ⟨1, _⟩ => exact (rhs_axis1 _ _).trans hk)
  rw [el, er]

/-- The one-row scale block broadcast down the 1024 rows, at entry (p, q), is its entry (0, q). -/
theorem scale_at (v : FVec Ideal S1x256 .f32) (p : Fin 1024) (q : Fin 256) :
    broadcastTo S1024x256 v broadcasts_S1x256_S1024x256 (ix2 p q) = v (ix2 (0 : Fin 1) q) :=
  broadcastTo_apply v broadcasts_S1x256_S1024x256 (ix2 p q) (ix2 (0 : Fin 1) q) (fun a => match a with
    | ⟨0, _⟩ => by show 0 = if (1 : Nat) = 1 then 0 else p.val; rw [if_pos rfl]
    | ⟨1, _⟩ => by show q.val = if (256 : Nat) = 1 then 0 else q.val; rw [if_neg (by decide)])

/-- The stored value at entry (p, q) of the block. -/
theorem payload_at (w : Vec Ideal S256x4096 .i32) (x : Vec Ideal S1024x4096 .bf16) (sc : Vec Ideal S1x256 .f32) (p : Fin 1024) (q : Fin 256) :
    k0_pay1 (F := Ideal) w x sc (ix2 p q) = (∑ k : Fin 4096, x (ix2 p k) * weightVal (w (ix2 q k))) * sc (ix2 (0 : Fin 1) q) := by
  show mulf (matmul (F := Ideal) dot_S1024x4096_S256x4096_S1024x256_1_1_0_0_n_n none (shapeCast S1024x4096 x shapeCasts_S1024x4096_S1024x4096)
        (truncf .bf16 (sitofp (F := Ideal) .f32 w) bitsLt_bf16_f32) (constant (F := Ideal) S1024x256 .f32 0x00000000#32))
      (broadcastTo S1024x256 (shapeCast S1x256 sc shapeCasts_S1x256_S1x256) broadcasts_S1x256_S1024x256) (ix2 p q) = _
  rw [shapeCast_self, shapeCast_self, mulf_apply, product_at, scale_at]
  rfl

/-- The same at any index j of the block, its two coordinates being (j 0, j 1). -/
theorem payload_idx (w : Vec Ideal S256x4096 .i32) (x : Vec Ideal S1024x4096 .bf16) (sc : Vec Ideal S1x256 .f32) (j : S1024x256.Idx) :
    k0_pay1 (F := Ideal) w x sc j = (∑ k : Fin 4096, x (ix2 (j 0) k) * weightVal (w (ix2 (j 1) k))) * sc (ix2 (0 : Fin 1) (j 1)) := by
  obtain ⟨p, q, rfl⟩ : ∃ (p : Fin 1024) (q : Fin 256), j = ix2 p q := ⟨j 0, j 1, eq_ix2 j⟩
  exact payload_at w x sc p q

end Cert.KernelIdeal.Block

end
-- ==== Proof.KernelArray.lean ====
/-
  From blocks to the array. The grid has 8 × 43 points, point t being (t / 43, t % 43) =: (i, j). At that point the
  body sees rows i·1024 … i·1024 + 1023 of the flattened activations (all 4096 columns), rows j·256 … j·256 + 255 of the
  weights, columns j·256 … of the scale row, and writes the [1024, 256] block (i, j) of the flat result. Entry (p, q) of
  what it writes is entry (i·1024 + p, j·256 + q) of `flat` of the three arrays as the region finds them, because the
  activation row it reads is row i·1024 + p, the weight row is row j·256 + q and the scale is (0, j·256 + q). The 344
  blocks tile the [8192, 11008] array (entry (r, o) lies in the block of point (r / 1024)·43 + o / 256), so after the
  run the array is `flat` everywhere.
-/
import proofs.«421068_j26353919328818_3_alg».proof.Proof.Gen.KernelIdeal.Frame
import proofs.«421068_j26353919328818_3_alg».proof.Proof.KernelPayload
import Idealize.ShloMosaic.Lib.Pipeline.Value

noncomputable section

open scoped BigOperators

namespace Cert.KernelIdeal.Block

open Cert.KernelIdeal Cert.KernelIdeal.Gen Cert.ScaledLinear
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The three arrays as the region finds them, at their literal types: the flattened activations, the weights, the scale row. -/
abbrev rowsArr (c : Dev nD) : Rows.Idx → EReal := V m c main_v1
abbrev wtsArr (c : Dev nD) : Wts.Idx → BitVec 32 := V m c main_arg1
abbrev scaleArr (c : Dev nD) : ScaleRow.Idx → EReal := V m c main_v2

theorem origin : (![0, 0] : Fin 2 → Nat) = fun _ => 0 := funext fun a => by fin_cases a <;> rfl

/-- The four windows' block indices at point t, decided over the 344 points: the result's block is (t / 43, t % 43),
    the activations' (t / 43, 0), the weights' (t % 43, 0), the scale row's (0, t % 43). -/
theorem index_maps : ∀ t : Fin cfg0.N,
    win0_3.index t (0 : Fin 2) = t.val / 43 ∧ win0_3.index t (1 : Fin 2) = t.val % 43
    ∧ win0_0.index t (0 : Fin 2) = t.val / 43 ∧ win0_0.index t (1 : Fin 2) = 0
    ∧ win0_1.index t (0 : Fin 2) = t.val % 43 ∧ win0_1.index t (1 : Fin 2) = 0
    ∧ win0_2.index t (0 : Fin 2) = 0 ∧ win0_2.index t (1 : Fin 2) = t.val % 43 :=
  (by decide +kernel : ∀ t : Fin grid0.N, _)

/-- What point t writes back is block t of `flat` of the arrays as the region finds them. -/
theorem flushed_eq (c : Dev nD) (t : Fin cfg0.N) :
    (dats m 0 c).flushed 3 t = ((cfg0.win 3).blk t).view.read (Elt Ideal) (flat (V m c main_v1) (V m c main_arg1) (V m c main_v2)) := by
  show (cfg0.win 3).cut (grid0.coords t) ((dats m 0 c).after 3 t) = _
  rw [after0_3]
  unfold out0_3
  rw [View.canon_unit_zero origin]
  simp only [View.ld_unit_zero (S := S256x4096) origin, View.ld_unit_zero (S := S1024x4096) origin, View.ld_unit_zero (S := S1x256) origin]
  obtain ⟨e30, e31, e00, e01, e10, e11, e20, e21⟩ := index_maps t
  funext j
  show k0_pay1 (F := Ideal) (iblk m c 1 t) (iblk m c 0 t) (iblk m c 2 t) j
    = flat (V m c main_v1) (V m c main_arg1) (V m c main_v2) (((cfg0.win 3).blk t).view.emb j)
  refine (payload_idx (iblk m c 1 t) (iblk m c 0 t) (iblk m c 2 t) j).trans ?_
  show (∑ k : Fin 4096, rowsArr m c (((cfg0.win 0).blk t).view.emb (ix2 (j 0) k)) * weightVal (wtsArr m c (((cfg0.win 1).blk t).view.emb (ix2 (j 1) k))))
        * scaleArr m c (((cfg0.win 2).blk t).view.emb (ix2 (0 : Fin 1) (j 1)))
    = (∑ k : Fin 4096, rowsArr m c (ix2 ((((cfg0.win 3).blk t).view.emb j) 0) k) * weightVal (wtsArr m c (ix2 ((((cfg0.win 3).blk t).view.emb j) 1) k)))
        * scaleArr m c (ix2 (0 : Fin 1) ((((cfg0.win 3).blk t).view.emb j) 1))
  have hx : ∀ k : Fin 4096, ((cfg0.win 0).blk t).view.emb (ix2 (j 0) k) = ix2 ((((cfg0.win 3).blk t).view.emb j) 0) k := fun k => by
    funext a; apply Fin.ext
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 4096 + 1 * k.val = k.val; omega
  have hw : ∀ k : Fin 4096, ((cfg0.win 1).blk t).view.emb (ix2 (j 1) k) = ix2 ((((cfg0.win 3).blk t).view.emb j) 1) k := fun k => by
    funext a; apply Fin.ext
    match a with
    | ⟨0, _⟩ => show win0_1.index t (0 : Fin 2) * 256 + 1 * (j 1).val = win0_3.index t (1 : Fin 2) * 256 + 1 * (j 1).val; omega
    | ⟨1, _⟩ => show win0_1.index t (1 : Fin 2) * 4096 + 1 * k.val = k.val; omega
  have hs : ((cfg0.win 2).blk t).view.emb (ix2 (0 : Fin 1) (j 1)) = ix2 (0 : Fin 1) ((((cfg0.win 3).blk t).view.emb j) 1) := by
    funext a; apply Fin.ext
    match a with
    | ⟨0, _⟩ => show win0_2.index t (0 : Fin 2) * 1 + 1 * 0 = 0; omega
    | ⟨1, _⟩ => show win0_2.index t (1 : Fin 2) * 256 + 1 * (j 1).val = win0_3.index t (1 : Fin 2) * 256 + 1 * (j 1).val; omega
  rw [hs]
  exact congrArg (· * _) (Finset.sum_congr rfl fun k _ => by rw [hx k, hw k]; rfl)

/-- An index of the array is in point t's block iff each coordinate is in the block's range on its axis. -/
theorem mem_blk (t : Fin cfg0.N) (i : S8192x11008.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v3).slice (win0_3.rect t)).set ↔ _
  rw [View.set_slice_whole, Rect.mem_set_unit]
  exact Iff.rfl

/-- Every entry (r, o) of the array is written: by the point (r / 1024)·43 + o / 256. -/
theorem covered (i : S8192x11008.Idx) : ∃ t : Fin cfg0.N, (cfg0.win 3).flush t = true ∧ i ∈ ((cfg0.win 3).blk t).view.set := by
  have hi0 : (i 0).val < 8192 := (i 0).isLt
  have hi1 : (i 1).val < 11008 := (i 1).isLt
  obtain ⟨t, ht⟩ : ∃ t : Fin cfg0.N, t.val = (i 0).val / 1024 * 43 + (i 1).val / 256 :=
    ⟨⟨(i 0).val / 1024 * 43 + (i 1).val / 256, by show _ < grid0.N; rw [N_0]; omega⟩, rfl⟩
  obtain ⟨e30, e31, -⟩ := index_maps t
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 256 ≤ (i 1).val ∧ (i 1).val < win0_3.index t (1 : Fin 2) * 256 + 256; omega

/-- After the run the region's output array is `flat` of the arrays as the region finds them. -/
theorem region_array (c : Dev nD) :
    (dats m 0 c).arrAt 3 cfg0.N = flat (V m c main_v1) (V m c main_arg1) (V m c main_v2) :=
  (dats m 0 c).arrAt_eq_of_cover 3 _ (fun t _ => flushed_eq m c t) covered

end Cert.KernelIdeal.Block

end
-- ==== Proof.KernelRun.lean ====
/-
  The kernel program as a whole. Before the region the host flattens the activations to 8192 rows (the narrowing to
  a shorter float format that follows is the identity on the extended reals) and lays the scales out as a one-row
  matrix; the weights go in as they are. The region leaves `flat` of these in its output array. After the region the
  host re-reads that array as [4, 2048, 11008] by row-major position, which is `out` of the three arguments
  (`unflatten`). The argument arrays end as they began.
-/
import proofs.«421068_j26353919328818_3_alg».proof.Proof.KernelArray
import Idealize.ShloMosaic.Lib.StableHlo.Run

noncomputable section

open scoped BigOperators

namespace Cert.KernelIdeal.Whole

open Cert.KernelIdeal Cert.KernelIdeal.Gen Cert.KernelIdeal.Block Cert.ScaledLinear
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The region finds the activations flattened to rows. -/
theorem rows_eq (c : Dev nD) :
    V m c main_v1 = shapeCast S8192x4096 (m ((c : Thread nD τ).loc main_arg0)) shapeCasts_S4x2048x4096_S8192x4096 := by
  show StableHlo.after hostOps0 (fun b => m (c, b)) (Proc.devRef .tc main_v1) = _
  after_results
  rfl

/-- The region finds the scales as a one-row matrix. -/
theorem scale_row_eq (c : Dev nD) :
    V m c main_v2 = shapeCast S1x11008 (m ((c : Thread nD τ).loc main_arg2)) shapeCasts_S11008_S1x11008 := by
  show StableHlo.after hostOps0 (fun b => m (c, b)) (Proc.devRef .tc main_v2) = _
  after_results
  rfl

/-- The program's result buffer after the host line that follows the region: the region's output array re-read at the
    result's shape. -/
theorem result_eq (c : Dev nD) :
    Pipeline.afterTail₀ cfgs (dats m) 0 (V0 m) [hostOps1] c main_v4
      = shapeCast S4x2048x11008 ((dats m 0 c).arrAt 3 cfg0.N) shapeCasts_S8192x11008_S4x2048x11008 := by
  have hw : Pipeline.withArrays spec0 c (V0 m c) (fun w => (dats m 0 c).arrAt w cfg0.N) (Proc.devRef .tc main_v3)
      = (dats m 0 c).arrAt 3 cfg0.N :=
    Pipeline.withArrays_arr spec0 launch0.win.arr_inj c _ _ 3
  unfold Pipeline.afterTail₀
  show StableHlo.after hostOps1 _ (Proc.devRef .tc main_v4) = _
  after_results
  rw [hw]
  rfl

/-- The result buffer is `out` of the three arguments. -/
theorem value (c : Dev nD) :
    Pipeline.afterTail₀ cfgs (dats m) 0 (V0 m) [hostOps1] c main_v4
      = out (m ((c : Thread nD τ).loc main_arg0)) (m ((c : Thread nD τ).loc main_arg1)) (m ((c : Thread nD τ).loc main_arg2)) := by
  rw [result_eq, region_array, rows_eq, scale_row_eq, V_main_arg1]
  exact unflatten _ _ _ shapeCasts_S4x2048x4096_S8192x4096 shapeCasts_S11008_S1x11008 shapeCasts_S8192x11008_S4x2048x11008

/-- Every weakly fair execution of the kernel program terminates with its result at `out` of the arguments and the
    arguments unchanged. -/
theorem run : θ_run defs (onTc (τ := τ) (main (F := Ideal))) ⟨m, fun _ => 0, ρ⟩ fun r => ∀ c : Dev nD,
      r.2.mem ((c.tc : Thread nD τ).loc main_v4)
        = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (value m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Whole

end
-- ==== Proof.lean ====
/-
  A linear layer with integer weights and a scale per output channel, computed two ways:

      out[b, s, o] = (∑ₖ x[b, s, k] · w[o, k]) · scale[o],      x : [4, 2048, 4096], w : [11008, 4096] integers, scale : [11008].

  The reference converts the weights, contracts the last axis of the activations with the last axis of the weights and
  multiplies by the scales broadcast along the first two axes. The kernel program flattens the activations to 8192 rows,
  tiles the [8192, 11008] result into 8 × 43 blocks of [1024, 256], computes each block as the product of a
  [1024, 4096] block of rows with the converted [256, 4096] block of weights into a zero accumulator, times the matching
  256 scales, and re-reads the assembled matrix as [4, 2048, 11008].

  On the extended reals both are the function `out` above (Proof/Spec.lean): a change of float format is the identity, a
  weight word is the integer it denotes on both sides, a product into a zero accumulator is the plain sum, and the blocks
  tile the result. The two sides form the same products, sum them over the same index and scale on the same side, so no
  law of arithmetic that could fail at an infinity is used, and the precondition (finite inputs) is never opened.

  The modules: Spec (the function, its flattened form, and that un-flattening the latter gives the former), RefValue (the
  reference's stages read at an index are `out`), KernelPayload (one entry of a stored block), KernelArray (the blocks tile
  the output array, which is the flattened form), KernelRun (the host lines around the region; the program's run).
  The kernel programs' termination and unchanged arguments are the generated frame theorems; the reference's is its
  generated run with the result dropped. The idealization rewrote nothing, so there is nothing to preserve.
-/
import proofs.«421068_j26353919328818_3_alg».proof.Defs
import proofs.«421068_j26353919328818_3_alg».proof.Proof.Gen.Kernel
import proofs.«421068_j26353919328818_3_alg».proof.Proof.Gen.Kernel.Skeleton
import proofs.«421068_j26353919328818_3_alg».proof.Proof.Gen.Kernel.Launch
import proofs.«421068_j26353919328818_3_alg».proof.Proof.Gen.Kernel.Points
import proofs.«421068_j26353919328818_3_alg».proof.Proof.Gen.Kernel.Frame
import proofs.«421068_j26353919328818_3_alg».proof.Proof.Gen.KernelIdeal
import proofs.«421068_j26353919328818_3_alg».proof.Proof.Gen.KernelIdeal.Skeleton
import proofs.«421068_j26353919328818_3_alg».proof.Proof.Gen.KernelIdeal.Launch
import proofs.«421068_j26353919328818_3_alg».proof.Proof.Gen.KernelIdeal.Points
import proofs.«421068_j26353919328818_3_alg».proof.Proof.Gen.KernelIdeal.Frame
import proofs.«421068_j26353919328818_3_alg».proof.Proof.Gen.ReferenceIdeal
import proofs.«421068_j26353919328818_3_alg».proof.Proof.Gen.ReferenceIdeal.Run
import proofs.«421068_j26353919328818_3_alg».proof.Proof.Gen.ReferenceIdeal.Read
import proofs.«421068_j26353919328818_3_alg».proof.Proof.Gen.Pre_finite_inputs
import proofs.«421068_j26353919328818_3_alg».proof.Proof.Spec
import proofs.«421068_j26353919328818_3_alg».proof.Proof.RefValue
import proofs.«421068_j26353919328818_3_alg».proof.Proof.KernelRun
import Idealize.ShloMosaic.Adequacy
import Idealize.ShloMosaic.Init

noncomputable section

namespace Cert.Proof

open Idealize.ShloMosaic Idealize.ShloMosaic.TcCoe Idealize.SL.Sem

/-- The kernel program, as printed, terminates on every weakly fair execution and leaves its arguments unchanged. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- So does the reference: its run, the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments both programs end with `out` of those arguments in their result
    buffers: the kernel program by its run, the reference by its run read stage by stage. -/
theorem algebraic : Cert.algebraic_KernelIdeal_ReferenceIdeal := by
  intro m ρ m' ρ' _ hagree
  refine ⟨fun c => Cert.ScaledLinear.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.ReferenceIdeal.RefValue.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
